-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩
abbrev S10000x1 : Shape := ⟨2, ![10000, 1]⟩

abbrev nBuf : Space → Nat
  | .hbm => 33
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S100000x1, .f32⟩
  | .hbm, ⟨30, _⟩ => ⟨S1x64, .f32⟩
  | .hbm, ⟨31, _⟩ => ⟨S1x64, .f32⟩
  | .hbm, ⟨32, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v13) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.BodyAtIndex.lean ====
/-
  The kernel body's one stored value, read at a row `p` and a column `q` of its 10000 x 64 block, at the ideal
  instance. With `a` the block of neighbour sums, `n` the column of neighbour counts, `x` the block of node features,
  `wl`, `wr` the two 64 x 64 weight matrices and `bl`, `br` the two bias rows, the stored value at `(p, q)` is

      ((sum over k of (a[p,k] / max(n[p], 1)) * wl[k,q]) + bl[q] + sum over k of x[p,k] * wr[k,q]) + br[q].

  The changes of float format are the identity at the ideal instance, each matrix product into a zero accumulator is
  the plain sum over the contracted axis, the count column is broadcast along the lanes and each bias row along the rows.
-/
import proofs.«149524_j37151467110629_1_alg».proof.Proof.Gen.KernelIdeal.Skeleton
import proofs.«149524_j37151467110629_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The operand indices of the block's matrix product -/

theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A 10000 x 64 block times a 64 x 64 matrix into a zero accumulator: entry `(p, q)` is the sum over the 64 contracted
    positions `k` of the block's `(p, k)` times the matrix's `(k, q)`. -/
theorem blockProduct_apply {φ₁ φ₂ : FTy} (l : FVec Ideal S10000x64 φ₁) (r : FVec Ideal S64x64 φ₂) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The stored value at a row and a column -/

/-- The body's stored value at `(p, q)`: the normalised neighbour sums times the left weights, plus the left bias, plus
    the node's own features times the right weights, plus the right bias. -/
theorem stored_apply (a : Vec Ideal S10000x64 .f32) (n : Vec Ideal S10000x1 .f32) (x : Vec Ideal S10000x64 .f32)
    (wl : Vec Ideal S64x64 .f32) (wr : Vec Ideal S64x64 .f32) (bl : Vec Ideal S1x64 .f32) (br : Vec Ideal S1x64 .f32)
    (p : Fin 10000) (q : Fin 64) :
    k0_pay1 (F := Ideal) a n x wl wr bl br (ix2 p q)
      = ((∑ k : Fin 64, Ideal.div (a (ix2 p k)) (max (n (ix2 p (0 : Fin 1))) (Ideal.ofBits .f32 0x3F800000#32)) * wl (ix2 k q))
          + bl (ix2 (0 : Fin 1) q) + ∑ k : Fin 64, x (ix2 p k) * wr (ix2 k q)) + br (ix2 (0 : Fin 1) q) := by
  unfold k0_pay1
  simp only [shapeCast_self]
  rw [addf_apply, addf_apply, addf_apply, blockProduct_apply, blockProduct_apply,
    broadcastTo_1b_ab_apply, broadcastTo_1b_ab_apply]
  refine congrArg (· + br (ix2 (0 : Fin 1) q)) (congrArg (· + ∑ k : Fin 64, x (ix2 p k) * wr (ix2 k q)) (congrArg (· + bl (ix2 (0 : Fin 1) q)) (Finset.sum_congr rfl fun k _ => ?_)))
  rw [truncf_apply, truncf_apply, divf_apply, Cert.LibKeepdims.broadcastTo_a1_ab_apply, maximumf_apply]
  rfl

end Cert.KernelIdeal.Body

end
-- ==== Proof.MeanAggLayer.lean ====
/-
  The layer's result as ONE function of seven arrays, entry by entry, on the extended reals.

  For a graph on 100000 nodes with 64 features a node, let `agg[r, ·]` be the sum of the feature rows of node `r`'s
  in-neighbours and `cnt[r]` their number. The mean-aggregation layer with a root weight sends node `r` to

      out[r, j] = ((Σ_k (agg[r, k] / max(cnt[r], 1)) · W_l[k, j]) + b_l[j] + Σ_k x[r, k] · W_r[k, j]) + b_r[j],

  the additions in exactly this order. Both programs compute this; neither re-associates a sum or moves a factor
  across one, so no law of the extended reals beyond reading each side at an index is used, and the inputs'
  finiteness is never needed.
-/
import Idealize.ShloMosaic.PureOps.Ideal
import Idealize.ShloMosaic.Lib.ValueIdx

noncomputable section

namespace Cert.MeanAggLayer

open Idealize.ShloMosaic Idealize.ShloMosaic.ValueIdx

/-- Entry `(r, j)` of the layer's output from the neighbour sums `agg`, the neighbour counts `cnt`, the features `x`,
    the two weight matrices and the two biases. The literal is the float `1.0`, the floor under the count. -/
def out (agg : (⟨2, ![100000, 64]⟩ : Shape).Idx → EReal) (cnt : (⟨1, ![100000]⟩ : Shape).Idx → EReal)
    (x : (⟨2, ![100000, 64]⟩ : Shape).Idx → EReal) (wl : (⟨2, ![64, 64]⟩ : Shape).Idx → EReal)
    (bl : (⟨1, ![64]⟩ : Shape).Idx → EReal) (wr : (⟨2, ![64, 64]⟩ : Shape).Idx → EReal)
    (br : (⟨1, ![64]⟩ : Shape).Idx → EReal) : (⟨2, ![100000, 64]⟩ : Shape).Idx → EReal := fun i =>
  ((∑ k : Fin 64, Ideal.div (agg (ix2 (n0 := 100000) (n1 := 64) (i 0) k))
        (max (cnt (ix1 (n := 100000) (i 0))) (Ideal.ofBits .f32 0x3F800000#32)) * wl (ix2 (n0 := 64) (n1 := 64) k (i 1)))
      + bl (ix1 (n := 64) (i 1))
      + ∑ k : Fin 64, x (ix2 (n0 := 100000) (n1 := 64) (i 0) k) * wr (ix2 (n0 := 64) (n1 := 64) k (i 1)))
    + br (ix1 (n := 64) (i 1))

/-- The definition read at an entry. -/
theorem out_apply (agg : (⟨2, ![100000, 64]⟩ : Shape).Idx → EReal) (cnt : (⟨1, ![100000]⟩ : Shape).Idx → EReal)
    (x : (⟨2, ![100000, 64]⟩ : Shape).Idx → EReal) (wl : (⟨2, ![64, 64]⟩ : Shape).Idx → EReal)
    (bl : (⟨1, ![64]⟩ : Shape).Idx → EReal) (wr : (⟨2, ![64, 64]⟩ : Shape).Idx → EReal)
    (br : (⟨1, ![64]⟩ : Shape).Idx → EReal) (i : (⟨2, ![100000, 64]⟩ : Shape).Idx) :
    out agg cnt x wl bl wr br i
      = ((∑ k : Fin 64, Ideal.div (agg (ix2 (n0 := 100000) (n1 := 64) (i 0) k))
            (max (cnt (ix1 (n := 100000) (i 0))) (Ideal.ofBits .f32 0x3F800000#32)) * wl (ix2 (n0 := 64) (n1 := 64) k (i 1)))
          + bl (ix1 (n := 64) (i 1))
          + ∑ k : Fin 64, x (ix2 (n0 := 100000) (n1 := 64) (i 0) k) * wr (ix2 (n0 := 64) (n1 := 64) k (i 1)))
        + br (ix1 (n := 64) (i 1)) := rfl

end Cert.MeanAggLayer

end
-- ==== Proof.StagedLayer.lean ====
/-
  The layer function over the arrays as the kernel region stages them — the counts a 100000 x 1 column, each bias a
  1 x 64 matrix — and the body's stored value at one entry of one block of rows as that function at the entry's place
  in the arrays.
-/
import proofs.«149524_j37151467110629_1_alg».proof.Proof.BodyAtIndex
import proofs.«149524_j37151467110629_1_alg».proof.Proof.MeanAggLayer
import proofs.«149524_j37151467110629_1_alg».proof.Proof.LibKeepdims
import Idealize.ShloMosaic.Lib.ValueLayout

noncomputable section

namespace Cert.KernelIdeal.LayerValue

open Cert.KernelIdeal Cert.KernelIdeal.Gen Idealize.ShloMosaic Idealize.ShloMosaic.ValueIdx

/-- The layer function with the count read from a 100000 x 1 column and each bias from a 1 x 64 matrix. -/
def staged (A : Vec Ideal S100000x64 .f32) (N : Vec Ideal S100000x1 .f32) (X : Vec Ideal S100000x64 .f32)
    (WL : Vec Ideal S64x64 .f32) (BL : Vec Ideal S1x64 .f32) (WR : Vec Ideal S64x64 .f32) (BR : Vec Ideal S1x64 .f32) :
    Vec Ideal S100000x64 .f32 := fun i =>
  ((∑ k : Fin 64, Ideal.div (A (ix2 (n0 := 100000) (n1 := 64) (i 0) k))
        (max (N (ix2 (n0 := 100000) (n1 := 1) (i 0) (0 : Fin 1))) (Ideal.ofBits .f32 0x3F800000#32)) * WL (ix2 (n0 := 64) (n1 := 64) k (i 1)))
      + BL (ix2 (n0 := 1) (n1 := 64) (0 : Fin 1) (i 1))
      + ∑ k : Fin 64, X (ix2 (n0 := 100000) (n1 := 64) (i 0) k) * WR (ix2 (n0 := 64) (n1 := 64) k (i 1)))
    + BR (ix2 (n0 := 1) (n1 := 64) (0 : Fin 1) (i 1))

/-- With the column a vector's cast and each one-row matrix a vector's cast, it is the layer function of the vectors:
    the column's entry `(r, 0)` is the vector's entry `r`, the one-row matrix's entry `(0, j)` the vector's entry `j`. -/
theorem staged_eq_out (A : Vec Ideal S100000x64 .f32) (cnt : Vec Ideal S100000 .f32) (X : Vec Ideal S100000x64 .f32)
    (WL : Vec Ideal S64x64 .f32) (bl : Vec Ideal S64 .f32) (WR : Vec Ideal S64x64 .f32) (br : Vec Ideal S64 .f32) :
    staged A (shapeCast S100000x1 cnt shapeCasts_S100000_S100000x1) X WL (shapeCast S1x64 bl shapeCasts_S64_S1x64) WR
        (shapeCast S1x64 br shapeCasts_S64_S1x64)
      = Cert.MeanAggLayer.out A cnt X WL bl WR br := by
  funext i
  have eN : shapeCast S100000x1 cnt shapeCasts_S100000_S100000x1 (ix2 (n0 := 100000) (n1 := 1) (i 0) (0 : Fin 1)) = cnt (ix1 (n := 100000) (i 0)) :=
    Cert.LibKeepdims.shapeCast_a_a1_apply cnt shapeCasts_S100000_S100000x1 (i 0) (0 : Fin 1)
  have eL : shapeCast S1x64 bl shapeCasts_S64_S1x64 (ix2 (n0 := 1) (n1 := 64) (0 : Fin 1) (i 1)) = bl (ix1 (n := 64) (i 1)) :=
    shapeCast_a_1a_apply bl shapeCasts_S64_S1x64 (0 : Fin 1) (i 1)
  have eR : shapeCast S1x64 br shapeCasts_S64_S1x64 (ix2 (n0 := 1) (n1 := 64) (0 : Fin 1) (i 1)) = br (ix1 (n := 64) (i 1)) :=
    shapeCast_a_1a_apply br shapeCasts_S64_S1x64 (0 : Fin 1) (i 1)
  rw [Cert.MeanAggLayer.out_apply]
  unfold staged
  rw [eN, eL, eR]

/-- The body's stored value at an entry of block `b` of rows is the staged layer function at the entry's place in the
    arrays: row `10000 b + (row in the block)`, the same column. The three row-blocked inputs are read at that row,
    the two weight matrices and the two bias rows are whole. -/
theorem point_eq (A : Vec Ideal S100000x64 .f32) (N : Vec Ideal S100000x1 .f32) (X : Vec Ideal S100000x64 .f32)
    (WL : Vec Ideal S64x64 .f32) (BL : Vec Ideal S1x64 .f32) (WR : Vec Ideal S64x64 .f32) (BR : Vec Ideal S1x64 .f32)
    (a : Vec Ideal S10000x64 .f32) (n : Vec Ideal S10000x1 .f32) (x : Vec Ideal S10000x64 .f32)
    (wl : Vec Ideal S64x64 .f32) (wr : Vec Ideal S64x64 .f32) (bl : Vec Ideal S1x64 .f32) (br : Vec Ideal S1x64 .f32)
    (b : Nat) (hb : b ≤ 9)
    (ha : ∀ (p : Fin 10000) (k : Fin 64), a (ix2 p k) = A (ix2 (⟨b * 10000 + p.val, by have := p.isLt; omega⟩ : Fin 100000) k))
    (hn : ∀ (p : Fin 10000), n (ix2 p (0 : Fin 1)) = N (ix2 (⟨b * 10000 + p.val, by have := p.isLt; omega⟩ : Fin 100000) (0 : Fin 1)))
    (hx : ∀ (p : Fin 10000) (k : Fin 64), x (ix2 p k) = X (ix2 (⟨b * 10000 + p.val, by have := p.isLt; omega⟩ : Fin 100000) k))
    (hwl : ∀ y, wl y = WL y) (hwr : ∀ y, wr y = WR y) (hbl : ∀ y, bl y = BL y) (hbr : ∀ y, br y = BR y)
    (j : S10000x64.Idx) :
    k0_pay1 (F := Ideal) a n x wl wr bl br j
      = staged A N X WL BL WR BR (ix2 (⟨b * 10000 + (j 0).val, by have h0 : (j 0).val < 10000 := (j 0).isLt; omega⟩ : Fin 100000) (j 1)) := by
  obtain rfl : wl = WL := funext hwl
  obtain rfl : wr = WR := funext hwr
  obtain rfl : bl = BL := funext hbl
  obtain rfl : br = BR := funext hbr
  obtain ⟨p, q, rfl⟩ : ∃ (p : Fin 10000) (q : Fin 64), j = ix2 p q := ⟨j 0, j 1, eq_ix2 j⟩
  rw [Cert.KernelIdeal.Body.stored_apply]
  unfold staged
  simp only [ha, hn, hx]

end Cert.KernelIdeal.LayerValue

end
-- ==== Proof.HostPrefix.lean ====
/-
  What the region finds in the arrays the host operations wrote before it.

  Before the one kernel region the program computes, on the host, the neighbour sums (a gather of the source nodes'
  feature rows scattered, adding, into the target nodes' rows of a zero array) and the neighbour counts (ones scattered,
  adding, into a zero vector), views the counts as a column and each bias as a one-row matrix. Here each of these four
  arrays, as the region finds it, is named as a term of the program's arguments. The two scatter terms are kept whole:
  the reference computes them by the same operations, so they are never opened.
-/
import proofs.«149524_j37151467110629_1_alg».proof.Proof.Gen.KernelIdeal.Frame
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

variable {F : FTy → Type} [FloatOps F]

/-- The target node of each edge: row 1 of the edge list, as a column of indices. -/
def targets (e : (⟨S2x1600000, .i32⟩ : BufTy).Contents (Elt F)) : (⟨S1600000x1, .i32⟩ : BufTy).Contents (Elt F) :=
  broadcastInDim S1600000x1 ![0] bcast_S1600000_S1600000x1_0 (shapeCast _ (extractStridedSlice S1x1600000 ![1, 0] e slices_S2x1600000_S1x1600000_1_0) shapeCasts_S1x1600000_S1600000)

/-- The source node of each edge: row 0 of the edge list, a negative entry counted from the end, as a column of indices. -/
def sources (e : (⟨S2x1600000, .i32⟩ : BufTy).Contents (Elt F)) : (⟨S1600000x1, .i32⟩ : BufTy).Contents (Elt F) :=
  broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))

/-- The neighbour sums: the source rows of the features, added into the target rows of a zero array. -/
def neighbourSum (x : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (targets e) (Host.gather gather_S100000x64_S1600000x1_S1600000x64_1_0_n_n_0_1_164 x (sources e))

/-- The neighbour counts: a one for each edge, added into its target's entry of a zero vector. -/
def neighbourCount (e : (⟨S2x1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant S_ .f32 0x00000000#32)) (targets e) (broadcastInDim S1600000 ![] bcast_S_S1600000 (constant S_ .f32 0x3F800000#32))

variable (m : (ℓ : Loc nD τ sig) → Buf (Elt F) ℓ)

/-- The region's first operand is the neighbour sums of the features and the edge list as launched. -/
theorem found_sums (c : Dev nD) :
    (V m c main_v13 : (⟨S100000x64, .f32⟩ : BufTy).Contents (Elt F))
      = neighbourSum (m ((c : Thread nD τ).loc main_arg0)) (m ((c : Thread nD τ).loc main_arg1)) := by
  dsimp only [Gen.V, Gen.hostOps0]; after_results; rfl

/-- Its second operand is the neighbour counts viewed as a column. -/
theorem found_counts (c : Dev nD) :
    (V m c main_v18 : (⟨S100000x1, .f32⟩ : BufTy).Contents (Elt F))
      = shapeCast _ (neighbourCount (m ((c : Thread nD τ).loc main_arg1))) shapeCasts_S100000_S100000x1 := by
  dsimp only [Gen.V, Gen.hostOps0]; after_results; rfl

/-- The left bias is staged as a one-row matrix. -/
theorem found_leftBias (c : Dev nD) :
    (V m c main_v19 : (⟨S1x64, .f32⟩ : BufTy).Contents (Elt F))
      = shapeCast _ (m ((c : Thread nD τ).loc main_arg3)) shapeCasts_S64_S1x64 := by
  dsimp only [Gen.V, Gen.hostOps0]; after_results; rfl

/-- The right bias likewise. -/
theorem found_rightBias (c : Dev nD) :
    (V m c main_v20 : (⟨S1x64, .f32⟩ : BufTy).Contents (Elt F))
      = shapeCast _ (m ((c : Thread nD τ).loc main_arg5)) shapeCasts_S64_S1x64 := by
  dsimp only [Gen.V, Gen.hostOps0]; after_results; rfl

end Cert.KernelIdeal.Prefix

end
-- ==== Proof.KernelArray.lean ====
/-
  The kernel's output array after the run, as one function of the program's arguments.

  The region walks ten grid points; point `t` stages rows `10000 t … 10000 t + 9999` of the neighbour sums, of the count
  column and of the features, the whole of each weight matrix and bias row, and writes back the same rows of the output.
  So the block written at point `t` is the layer function read through that block of rows, the ten blocks tile the
  100000 rows, and the output array ends as the layer function of the arrays the region found. Those are the host
  prefix's neighbour sums, the counts as a column and the biases as one-row matrices, which gives the layer function of
  the arguments themselves.
-/
import proofs.«149524_j37151467110629_1_alg».proof.Proof.Gen.KernelIdeal.Value
import proofs.«149524_j37151467110629_1_alg».proof.Proof.StagedLayer
import proofs.«149524_j37151467110629_1_alg».proof.Proof.HostPrefix

set_option maxRecDepth 16384

noncomputable section

namespace Cert.KernelIdeal.LayerValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The printed index maps over the ten points: the three row-blocked inputs move with the output, the four resident
    inputs stay at block `(0, 0)`, and the output's row-block index is at most 9, its column-block index 0. -/
theorem index_facts : ∀ t : Fin cfg0.N, win0_7.index t (0 : Fin 2) ≤ 9 ∧ win0_7.index t (1 : Fin 2) = 0
    ∧ win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every one of the ten row blocks is some point's. -/
theorem index_onto : ∀ q0 : Fin 10, ∃ t : Fin cfg0.N, win0_7.index t = ![q0.val, 0] :=
  (by decide +kernel : ∀ q0 : Fin 10, ∃ t : Fin grid0.N, win0_7.index t = ![q0.val, 0])

/-- What point `t` writes back is block `t` of the staged layer function of the seven arrays the region finds, whatever
    terms `A`, `N`, … name them: each input block is its window's read of its array, the three row-blocked windows at the
    output's block of rows, the four resident ones at the whole array. -/
theorem flushed_eq (c : Dev nD) (t : Fin cfg0.N)
    (A : Vec Ideal S100000x64 .f32) (N : Vec Ideal S100000x1 .f32) (X : Vec Ideal S100000x64 .f32)
    (WL : Vec Ideal S64x64 .f32) (BL : Vec Ideal S1x64 .f32) (WR : Vec Ideal S64x64 .f32) (BR : Vec Ideal S1x64 .f32)
    (hA : V m c main_v13 = A) (hN : V m c main_v18 = N) (hX : V m c main_arg0 = X) (hWL : V m c main_arg2 = WL)
    (hBL : V m c main_v19 = BL) (hWR : V m c main_arg4 = WR) (hBR : V m c main_v20 = BR) :
    (dats m 0 c).flushed 7 t = ((cfg0.win 7).blk t).view.read (Elt Ideal) (staged A N X WL BL WR BR) := by
  have hA' : V m c (Pipeline.arrRef spec0 0) = A := hA
  have hN' : V m c (Pipeline.arrRef spec0 1) = N := hN
  have hX' : V m c (Pipeline.arrRef spec0 2) = X := hX
  have hWL' : V m c (Pipeline.arrRef spec0 3) = WL := hWL
  have hBL' : V m c (Pipeline.arrRef spec0 4) = BL := hBL
  have hWR' : V m c (Pipeline.arrRef spec0 5) = WR := hWR
  have hBR' : V m c (Pipeline.arrRef spec0 6) = BR := hBR
  have e0 : iblk m c 0 t = ((cfg0.win 0).blk t).view.read (Elt Ideal) A := by unfold iblk; rw [hA']
  have e1 : iblk m c 1 t = ((cfg0.win 1).blk t).view.read (Elt Ideal) N := by unfold iblk; rw [hN']
  have e2 : iblk m c 2 t = ((cfg0.win 2).blk t).view.read (Elt Ideal) X := by unfold iblk; rw [hX']
  have e3 : iblk m c 3 t = ((cfg0.win 3).blk t).view.read (Elt Ideal) WL := by unfold iblk; rw [hWL']
  have e4 : iblk m c 4 t = ((cfg0.win 4).blk t).view.read (Elt Ideal) BL := by unfold iblk; rw [hBL']
  have e5 : iblk m c 5 t = ((cfg0.win 5).blk t).view.read (Elt Ideal) WR := by unfold iblk; rw [hWR']
  have e6 : iblk m c 6 t = ((cfg0.win 6).blk t).view.read (Elt Ideal) BR := by unfold iblk; rw [hBR']
  rw [Cert.KernelIdeal.Value.flushed7, e0, e1, e2, e3, e4, e5, e6]
  clear e0 e1 e2 e3 e4 e5 e6 hA' hN' hX' hWL' hBL' hWR' hBR' hA hN hX hWL hBL hWR hBR
  unfold out0_7
  rw [View.canon_unit_zero origin]
  simp only [View.ld_unit_zero (S := S10000x64) origin, View.ld_unit_zero (S := S10000x1) origin,
    View.ld_unit_zero (S := S64x64) origin, View.ld_unit_zero (S := S1x64) origin]
  obtain ⟨f7, g7, f0, g0, f1, g1, f2, g2, f3, g3, f4, g4, f5, g5, f6, g6⟩ := index_facts t
  funext j
  show k0_pay1 (F := Ideal) (((cfg0.win 0).blk t).view.read (Elt Ideal) A) (((cfg0.win 1).blk t).view.read (Elt Ideal) N)
      (((cfg0.win 2).blk t).view.read (Elt Ideal) X) (((cfg0.win 3).blk t).view.read (Elt Ideal) WL)
      (((cfg0.win 5).blk t).view.read (Elt Ideal) WR) (((cfg0.win 4).blk t).view.read (Elt Ideal) BL)
      (((cfg0.win 6).blk t).view.read (Elt Ideal) BR) j
    = staged A N X WL BL WR BR (((cfg0.win 7).blk t).view.emb j)
  refine (point_eq A N X WL BL WR BR
    (((cfg0.win 0).blk t).view.read (Elt Ideal) A) (((cfg0.win 1).blk t).view.read (Elt Ideal) N)
    (((cfg0.win 2).blk t).view.read (Elt Ideal) X) (((cfg0.win 3).blk t).view.read (Elt Ideal) WL)
    (((cfg0.win 5).blk t).view.read (Elt Ideal) WR) (((cfg0.win 4).blk t).view.read (Elt Ideal) BL)
    (((cfg0.win 6).blk t).view.read (Elt Ideal) BR)
    (win0_7.index t (0 : Fin 2)) f7 ?_ ?_ ?_ ?_ ?_ ?_ ?_ j).trans ?_
  · intro p k
    show A (((cfg0.win 0).blk t).view.emb (ix2 p k)) = _
    refine congrArg A (funext fun a => Fin.ext ?_)
    match a with
    | ⟨0, _⟩ => show win0_0.index t (0 : Fin 2) * 10000 + 1 * p.val = win0_7.index t (0 : Fin 2) * 10000 + p.val; omega
    | ⟨1, _⟩ => show win0_0.index t (1 : Fin 2) * 64 + 1 * k.val = k.val; omega
  · intro p
    show N (((cfg0.win 1).blk t).view.emb (ix2 p (0 : Fin 1))) = _
    refine congrArg N (funext fun a => Fin.ext ?_)
    match a with
    | ⟨0, _⟩ => show win0_1.index t (0 : Fin 2) * 10000 + 1 * p.val = win0_7.index t (0 : Fin 2) * 10000 + p.val; omega
    | ⟨1, _⟩ => show win0_1.index t (1 : Fin 2) * 1 + 1 * 0 = 0; omega
  · intro p k
    show X (((cfg0.win 2).blk t).view.emb (ix2 p k)) = _
    refine congrArg X (funext fun a => Fin.ext ?_)
    match a with
    | ⟨0, _⟩ => show win0_2.index t (0 : Fin 2) * 10000 + 1 * p.val = win0_7.index t (0 : Fin 2) * 10000 + p.val; omega
    | ⟨1, _⟩ => show win0_2.index t (1 : Fin 2) * 64 + 1 * k.val = k.val; omega
  · intro y
    show WL (((cfg0.win 3).blk t).view.emb y) = WL y
    refine congrArg WL (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · intro y
    show WR (((cfg0.win 5).blk t).view.emb y) = WR y
    refine congrArg WR (funext fun a => Fin.ext ?_)
    match a with
    | ⟨0, _⟩ => show win0_5.index t (0 : Fin 2) * 64 + 1 * (y 0).val = (y 0).val; omega
    | ⟨1, _⟩ => show win0_5.index t (1 : Fin 2) * 64 + 1 * (y 1).val = (y 1).val; omega
  · intro y
    show BL (((cfg0.win 4).blk t).view.emb y) = BL y
    refine congrArg BL (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · intro y
    show BR (((cfg0.win 6).blk t).view.emb y) = BR y
    refine congrArg BR (funext fun a => Fin.ext ?_)
    match a with
    | ⟨0, _⟩ => show win0_6.index t (0 : Fin 2) * 1 + 1 * (y 0).val = (y 0).val; omega
    | ⟨1, _⟩ => show win0_6.index t (1 : Fin 2) * 64 + 1 * (y 1).val = (y 1).val; omega
  · refine congrArg (staged A N X WL BL WR BR) (funext fun a => Fin.ext ?_)
    match a with
    | ⟨0, _⟩ => show win0_7.index t (0 : Fin 2) * 10000 + (j 0).val = win0_7.index t (0 : Fin 2) * 10000 + 1 * (j 0).val; omega
    | ⟨1, _⟩ => show (j 1).val = win0_7.index t (1 : Fin 2) * 64 + 1 * (j 1).val; omega

/-- An index of the output array is in point `t`'s block iff each coordinate is in the block's range on its axis. -/
theorem mem_block (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v21).slice (win0_7.rect t)).set ↔ _
  rw [View.set_slice_whole, Rect.mem_set_unit]
  exact Iff.rfl

/-- Row `r` is in the block of the point whose row-block index is `r / 10000`: the ten blocks cover the array. -/
theorem covered (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  obtain ⟨t, ht⟩ := index_onto ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 64 ≤ (i 1).val ∧ (i 1).val < win0_7.index t (1 : Fin 2) * 64 + 64; omega

/-- The output array after the run is the layer function of the host prefix's neighbour sums and counts and of the
    program's arguments: the blocks cover the array, each block is the staged layer function of what the region
    found, and what it found is named by the host prefix. -/
theorem final (c : Dev nD) : (dats m 0 c).arrAt 7 cfg0.N
    = Cert.MeanAggLayer.out
        (Prefix.neighbourSum (m ((c : Thread nD τ).loc main_arg0)) (m ((c : Thread nD τ).loc main_arg1)))
        (Prefix.neighbourCount (m ((c : Thread nD τ).loc main_arg1)))
        (m ((c : Thread nD τ).loc main_arg0)) (m ((c : Thread nD τ).loc main_arg2)) (m ((c : Thread nD τ).loc main_arg3))
        (m ((c : Thread nD τ).loc main_arg4)) (m ((c : Thread nD τ).loc main_arg5)) :=
  ((dats m 0 c).arrAt_eq_of_cover 7
      (staged (Prefix.neighbourSum (m ((c : Thread nD τ).loc main_arg0)) (m ((c : Thread nD τ).loc main_arg1)))
        (shapeCast S100000x1 (Prefix.neighbourCount (m ((c : Thread nD τ).loc main_arg1))) shapeCasts_S100000_S100000x1)
        (m ((c : Thread nD τ).loc main_arg0)) (m ((c : Thread nD τ).loc main_arg2))
        (shapeCast S1x64 (m ((c : Thread nD τ).loc main_arg3)) shapeCasts_S64_S1x64)
        (m ((c : Thread nD τ).loc main_arg4))
        (shapeCast S1x64 (m ((c : Thread nD τ).loc main_arg5)) shapeCasts_S64_S1x64))
      (fun t _ => flushed_eq m c t _ _ _ _ _ _ _ (Prefix.found_sums m c) (Prefix.found_counts m c) (V_main_arg0 m c)
        (V_main_arg2 m c) (Prefix.found_leftBias m c) (V_main_arg4 m c) (Prefix.found_rightBias m c))
      covered).trans
    (staged_eq_out _ _ _ _ _ _ _)

/-- Every weakly fair execution of the idealized kernel program ends with its result array at the layer function of
    the arguments and the arguments unchanged. -/
theorem run : θ_run defs (onTc (τ := τ) (main (F := Ideal))) ⟨m, fun _ => 0, ρ⟩ fun r => ∀ c : Dev nD,
      r.2.mem ((c : Thread nD τ).loc main_v21) = Cert.MeanAggLayer.out
        (Prefix.neighbourSum (m ((c : Thread nD τ).loc main_arg0)) (m ((c : Thread nD τ).loc main_arg1)))
        (Prefix.neighbourCount (m ((c : Thread nD τ).loc main_arg1)))
        (m ((c : Thread nD τ).loc main_arg0)) (m ((c : Thread nD τ).loc main_arg2)) (m ((c : Thread nD τ).loc main_arg3))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.LayerValue

end
-- ==== Proof.ReferenceLayer.lean ====
/-
  The reference's result is the layer function of its own neighbour sums and neighbour counts.

  Reading the reference's last operation back through its operands: the outer sum of three terms and a bias, each
  matrix product a sum over the 64 contracted positions, the division entry by entry with the count (floored at one,
  viewed as a column and broadcast along the 64 lanes) read at the entry's row, each bias (viewed as one row and
  broadcast down the rows) read at the entry's column. The two scatter stages are left as they are.
-/
import proofs.«149524_j37151467110629_1_alg».proof.Proof.Gen.ReferenceIdeal.Read
import proofs.«149524_j37151467110629_1_alg».proof.Proof.MeanAggLayer

noncomputable section

namespace Cert.ReferenceIdeal.LayerValue

open Cert.ReferenceIdeal Cert.ReferenceIdeal.Gen Cert.ReferenceIdeal.Read Idealize.ShloMosaic Idealize.ShloMosaic.ValueIdx

/-! ## The operand indices, written by coordinates -/

theorem left_row (i : S100000x64.Idx) (k : Fin 64) : lidx_main_v23 i k = ix2 (n0 := 100000) (n1 := 64) (i 0) k := funext fun a => by
  match a with
  | ⟨0, _⟩ => rfl
  | ⟨1, _⟩ => rfl
theorem left_col (i : S100000x64.Idx) (k : Fin 64) : ridx_main_v23 i k = ix2 (n0 := 64) (n1 := 64) k (i 1) := funext fun a => by
  match a with
  | ⟨0, _⟩ => rfl
  | ⟨1, _⟩ => rfl
theorem right_row (i : S100000x64.Idx) (k : Fin 64) : lidx_main_v27 i k = ix2 (n0 := 100000) (n1 := 64) (i 0) k := funext fun a => by
  match a with
  | ⟨0, _⟩ => rfl
  | ⟨1, _⟩ => rfl
theorem right_col (i : S100000x64.Idx) (k : Fin 64) : ridx_main_v27 i k = ix2 (n0 := 64) (n1 := 64) k (i 1) := funext fun a => by
  match a with
  | ⟨0, _⟩ => rfl
  | ⟨1, _⟩ => rfl
theorem leftBias_at (i : S100000x64.Idx) : idx_main_v24 (idx_main_v25 i) = ix1 (n := 64) (i 1) := funext fun a => by
  match a with
  | ⟨0, _⟩ => rfl
theorem rightBias_at (i : S100000x64.Idx) : idx_main_v29 (idx_main_v30 i) = ix1 (n := 64) (i 1) := funext fun a => by
  match a with
  | ⟨0, _⟩ => rfl
theorem count_at (i : S100000x64.Idx) (k : Fin 64) :
    idx_main_v20 (idx_main_v21 (ix2 (n0 := 100000) (n1 := 64) (i 0) k)) = ix1 (n := 100000) (i 0) := funext fun a => by
  match a with
  | ⟨0, _⟩ => rfl

/-- The normalised neighbour sums at `(r, k)`: the sum's entry over the count of row `r` floored at one. -/
theorem mean_at (x0 : (⟨S100000x64, .f32⟩ : BufTy).Contents (Elt Ideal)) (x1 : (⟨S2x1600000, .i32⟩ : BufTy).Contents (Elt Ideal))
    (i : S100000x64.Idx) (k : Fin 64) :
    val_main_v22 (F := Ideal) x0 x1 (ix2 (n0 := 100000) (n1 := 64) (i 0) k)
      = Ideal.div (val_main_v13 (F := Ideal) x0 x1 (ix2 (n0 := 100000) (n1 := 64) (i 0) k))
          (max (val_main_v17 (F := Ideal) x1 (ix1 (n := 100000) (i 0))) (Ideal.ofBits .f32 0x3F800000#32)) := by
  rw [val_main_v22_apply, val_main_v21_apply, val_main_v20_apply, val_main_v19_apply, val_main_v18_apply,
    val_main_cst_3_apply, count_at i k, Ideal.hostDivf_def, Ideal.maximumf_def, Ideal.ofBits_def]

/-- The reference's result, at the ideal instance, as the layer function of its scatter stages and its arguments. -/
theorem result_eq (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal)) :
    val_main_v31 (F := Ideal) x0 x1 x2 x3 x4 x5
      = Cert.MeanAggLayer.out (val_main_v13 (F := Ideal) x0 x1) (val_main_v17 (F := Ideal) x1) x0 x2 x3 x4 x5 := by
  funext i
  have hL : (∑ k : Fin 64, val_main_v22 (F := Ideal) x0 x1 (lidx_main_v23 i k) * x2 (ridx_main_v23 i k))
      = ∑ k : Fin 64, Ideal.div (val_main_v13 (F := Ideal) x0 x1 (ix2 (n0 := 100000) (n1 := 64) (i 0) k))
          (max (val_main_v17 (F := Ideal) x1 (ix1 (n := 100000) (i 0))) (Ideal.ofBits .f32 0x3F800000#32)) * x2 (ix2 (n0 := 64) (n1 := 64) k (i 1)) :=
    Finset.sum_congr rfl fun k _ => by rw [left_row i k, left_col i k, mean_at x0 x1 i k]
  have hR : (∑ k : Fin 64, x0 (lidx_main_v27 i k) * x4 (ridx_main_v27 i k))
      = ∑ k : Fin 64, x0 (ix2 (n0 := 100000) (n1 := 64) (i 0) k) * x4 (ix2 (n0 := 64) (n1 := 64) k (i 1)) :=
    Finset.sum_congr rfl fun k _ => by rw [right_row i k, right_col i k]
  rw [val_main_v31_apply, val_main_v28_apply, val_main_v26_apply, val_main_v23_apply, val_main_v27_apply,
    val_main_v25_apply, val_main_v24_apply, val_main_v30_apply, val_main_v29_apply, leftBias_at i, rightBias_at i,
    hL, hR, Ideal.addf_def, Ideal.addf_def, Ideal.addf_def, Cert.MeanAggLayer.out_apply]

end Cert.ReferenceIdeal.LayerValue

end
-- ==== Proof.SamePrefix.lean ====
/-
  The two programs compute the neighbour sums and the neighbour counts by the same host operations: the kernel
  program's two scatter terms are the reference's two scatter stages, operation for operation (the two printed programs
  name the same shapes and the same dimension records, each in its own namespace). So the reference's result is the
  layer function of the KERNEL program's neighbour sums and counts.
-/
import proofs.«149524_j37151467110629_1_alg».proof.Proof.Gen.ReferenceIdeal.Read
import proofs.«149524_j37151467110629_1_alg».proof.Proof.HostPrefix
import proofs.«149524_j37151467110629_1_alg».proof.Proof.ReferenceLayer

noncomputable section

namespace Cert.SamePrefix

open Idealize.ShloMosaic

/-- The kernel program's neighbour sums are the reference's scatter-add stage of the same arguments. -/
theorem sums_eq (x : (⟨Cert.ReferenceIdeal.S100000x64, .f32⟩ : BufTy).Contents (Elt Ideal))
    (e : (⟨Cert.ReferenceIdeal.S2x1600000, .i32⟩ : BufTy).Contents (Elt Ideal)) :
    Cert.KernelIdeal.Prefix.neighbourSum (F := Ideal) x e = Cert.ReferenceIdeal.Read.val_main_v13 (F := Ideal) x e := rfl

/-- The kernel program's neighbour counts are the reference's count stage of the same edge list. -/
theorem counts_eq (e : (⟨Cert.ReferenceIdeal.S2x1600000, .i32⟩ : BufTy).Contents (Elt Ideal)) :
    Cert.KernelIdeal.Prefix.neighbourCount (F := Ideal) e = Cert.ReferenceIdeal.Read.val_main_v17 (F := Ideal) e := rfl

/-- The reference's result is the layer function of the kernel program's neighbour sums and counts. -/
theorem reference_layer (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal)) :
    Cert.ReferenceIdeal.Read.val_main_v31 (F := Ideal) x0 x1 x2 x3 x4 x5
      = Cert.MeanAggLayer.out (Cert.KernelIdeal.Prefix.neighbourSum (F := Ideal) x0 x1) (Cert.KernelIdeal.Prefix.neighbourCount (F := Ideal) x1) x0 x2 x3 x4 x5 := by
  rw [sums_eq x0 x1, counts_eq x1]
  exact Cert.ReferenceIdeal.LayerValue.result_eq x0 x1 x2 x3 x4 x5

end Cert.SamePrefix

end
-- ==== Proof.lean ====
/-
  The certificate of a mean-aggregation graph layer: a row-tiled kernel for the dense epilogue against a whole-array
  reference, equal over the extended reals.

  Both programs first compute, by the same host operations, the sums `agg` of each node's in-neighbours' feature rows
  and the numbers `cnt` of those neighbours. The reference then forms, whole-array,

      out[r, j] = ((Σ_k (agg[r, k] / max(cnt[r], 1)) · W_l[k, j]) + b_l[j] + Σ_k x[r, k] · W_r[k, j]) + b_r[j],

  and the kernel forms the same expression ten thousand rows at a time over a grid of ten points, its two matrix
  products into zero accumulators, its changes of float format the identity on the extended reals. The additions stand
  in the same order on both sides and no factor crosses a sum, so the two results are one function of the arguments
  (Proof/MeanAggLayer.lean), read off the kernel's run block by block (Proof/BodyAtIndex.lean, Proof/StagedLayer.lean,
  Proof/HostPrefix.lean, Proof/KernelArray.lean) and off the reference's run operation by operation
  (Proof/ReferenceLayer.lean, Proof/SamePrefix.lean). The inputs' finiteness is not used. The three frames are the
  programs' runs with the results dropped; the idealization rewrote no operation, so there is nothing to preserve.
-/
import proofs.«149524_j37151467110629_1_alg».proof.Defs
import proofs.«149524_j37151467110629_1_alg».proof.Proof.Gen.Kernel
import proofs.«149524_j37151467110629_1_alg».proof.Proof.Gen.Kernel.Skeleton
import proofs.«149524_j37151467110629_1_alg».proof.Proof.Gen.Kernel.Launch
import proofs.«149524_j37151467110629_1_alg».proof.Proof.Gen.Kernel.Points
import proofs.«149524_j37151467110629_1_alg».proof.Proof.Gen.Kernel.Frame
import proofs.«149524_j37151467110629_1_alg».proof.Proof.Gen.KernelIdeal
import proofs.«149524_j37151467110629_1_alg».proof.Proof.Gen.KernelIdeal.Skeleton
import proofs.«149524_j37151467110629_1_alg».proof.Proof.Gen.KernelIdeal.Launch
import proofs.«149524_j37151467110629_1_alg».proof.Proof.Gen.KernelIdeal.Points
import proofs.«149524_j37151467110629_1_alg».proof.Proof.Gen.KernelIdeal.Frame
import proofs.«149524_j37151467110629_1_alg».proof.Proof.Gen.ReferenceIdeal
import proofs.«149524_j37151467110629_1_alg».proof.Proof.Gen.KernelIdeal.Value
import proofs.«149524_j37151467110629_1_alg».proof.Proof.Gen.ReferenceIdeal.Run
import proofs.«149524_j37151467110629_1_alg».proof.Proof.Gen.ReferenceIdeal.Read
import proofs.«149524_j37151467110629_1_alg».proof.Proof.Gen.Pre_finite_inputs
import proofs.«149524_j37151467110629_1_alg».proof.Proof.KernelArray
import proofs.«149524_j37151467110629_1_alg».proof.Proof.SamePrefix
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the layer function of the arguments in
    their result arrays. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ((Cert.ReferenceIdeal.Read.val_main_v31_eq _ _ _ _ _ _).trans ?_), (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.SamePrefix.reference_layer _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
